-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S100000x128 .f32) (main_arg1 : FVec F S100000x128 .f32) (main_arg2 : FVec F S128x128 .f32) (main_arg3 : FVec F S128x1 .f32) (main_arg4 : FVec F S1600000 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S128 : Shape := ⟨1, ![128]⟩
abbrev S1x128 : Shape := ⟨2, ![1, 128]⟩
abbrev S2000 : Shape := ⟨1, ![2000]⟩
abbrev S2000x1 : Shape := ⟨2, ![2000, 1]⟩

abbrev nBuf : Space → Nat
  | .hbm => 57
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x1, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x1, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128x1_S128x1_0_0 : ∀ a, (![0, 0] : Fin 2 → Nat) a + S128x1.size a ≤ S128x1.size a
  h_S128x1 : 0 < S128x1.numel
  shapeCasts_S128x1_S128 : S128x1.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S100000x1 : Shape := ⟨2, ![100000, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x1, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x1, .f32⟩
  | .hbm, ⟨47, _⟩ => ⟨S100000x1, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.MatmulBlock.lean ====
/-
  One block of the projection. The first kernel loads a `2000 × 128` block of the features and the whole
  `128 × 128` weight, narrows both to bf16 (the identity on extended reals), and stores their matrix product
  accumulated into zero. Read at entry `(p, q)` of the block this is `∑ₖ x[p, k] · w[k, q]`: the contraction
  index of the product has one axis of extent 128, so the sum over it is the sum over `k : Fin 128`, with the
  left operand read at `(p, k)` and the right at `(k, q)`.
-/
import proofs.«152546_j77163382440895_1_alg».proof.Proof.Gen.KernelIdeal.Skeleton
import Idealize.ShloMosaic.PureOps.Ideal.Laws
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- The left operand's row coordinate is the output's row. -/
theorem lhs_proj_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction coordinate. -/
theorem lhs_proj_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction coordinate. -/
theorem rhs_proj_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_proj_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of what the first kernel stores: the inner product of row `p` of the feature block with
    column `q` of the weight. -/
theorem proj_block_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]
  rfl

end Cert.KernelIdeal.Blocks

end
-- ==== Proof.Spec.lean ====
/-
  What the program computes, as whole-array functions over the extended reals.

  The graph layer has three dense pieces between its sparse propagations:
    * the projection `proj x w`: entry `(r, j)` is `∑ₖ x[r, k] · w[k, j]`, a plain matrix product;
    * the gate of a row, `gate b g r = σ(∑ₖ max(b[r, k], 0) · g[k, 0])`, where `σ t = 1 / (1 + e^(−t))`;
    * the highway blend `blend a b g`: entry `(r, j)` is `T · max(a[r, j], 0) + (1 − T) · max(b[r, j], 0)`
      with `T = gate b g r` the gate of its row.
  The kernel computes the projection and the blend block by block (2000 rows at a time); the reference computes
  them as whole-array host operations. Both are these functions, entry by entry: the only laws used are that a
  sum over the contraction index does not depend on how the two programs spell its index set, and that
  `σ` is one function however it is written. No distributivity or cancellation is used, so nothing here needs
  the entries to be finite.
-/
import Idealize.ShloMosaic.PureOps.Ideal
import Idealize.ShloMosaic.PureOps.Ideal.Laws
import Idealize.ShloMosaic.Lib.ValueIdx

noncomputable section

open scoped BigOperators

namespace Cert.Highway

open Idealize.ShloMosaic Idealize.ShloMosaic.ValueIdx

/-- The single-precision word of `1.0` denotes the extended real one. -/
theorem ofBits_one_f32 : Ideal.ofBits .f32 0x3F800000#32 = 1 := by
  simp [Ideal.ofBits, Ideal.ieee, -EReal.coe_mul]; norm_num

/-- The dense projection: entry `(r, j)` is the sum over `k` of `x[r, k] · w[k, j]`. -/
def proj (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (i 0) k) * w (ix2 k (i 1))

/-- The gate of row `r`: the logistic function of the inner product of the row's positive part with the gate
    vector. -/
def gate (b : (⟨2, ![100000, 128]⟩ : Shape).Idx → EReal) (g : (⟨2, ![128, 1]⟩ : Shape).Idx → EReal) (r : Fin 100000) : EReal :=
  Ideal.logistic (∑ k : Fin 128, max (b (ix2 r k)) 0 * g (ix2 k (0 : Fin 1)))

/-- The highway blend: the row's gate times the positive part of `a`, plus one minus the gate times the
    positive part of `b`. -/
def blend (a b : (⟨2, ![100000, 128]⟩ : Shape).Idx → EReal) (g : (⟨2, ![128, 1]⟩ : Shape).Idx → EReal) :
    (⟨2, ![100000, 128]⟩ : Shape).Idx → EReal :=
  fun i => gate b g (i 0) * max (a i) 0 + (1 - gate b g (i 0)) * max (b i) 0

end Cert.Highway

end
-- ==== Proof.MatmulArray.lean ====
/-
  The projection, from blocks to the whole array. The first kernel runs over 50 grid points; point `t` reads
  rows `2000·t … 2000·t + 1999` of the features and the whole weight, and writes rows `2000·t … 2000·t + 1999`
  of the result. So what point `t` writes back is block `t` of the one whole-array function `proj`: entry
  `(p, q)` of the block is the inner product of feature row `2000·t + p` with weight column `q`. The 50 blocks
  tile the 100000 rows (row `r` lies in block `r / 2000`), so the array ends holding `proj` everywhere.
-/
import proofs.«152546_j77163382440895_1_alg».proof.Proof.Gen.KernelIdeal.Frame
import proofs.«152546_j77163382440895_1_alg».proof.Proof.MatmulBlock
import proofs.«152546_j77163382440895_1_alg».proof.Proof.Spec
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Where the blocks sit: the feature block and the result block of point `t` are block row `t`, column 0; the
    weight's one block is the whole weight. -/
theorem proj_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, entry `(p, k)`, is the feature array's entry `(2000·t + p, k)`. -/
theorem feat_block_apply (c : Dev nD) (t : Fin cfg0.N) (p : Fin 2000) (k : Fin 128) (r : Fin 100000)
    (hr : r.val = t.val * 2000 + p.val) :
    (iblk0 V c 0 t : Vec Ideal S2000x128 .f32) (ix2 p k) = (V c main_arg0 : S100000x128.Idx → Elt Ideal .f32) (ix2 r k) := by
  obtain ⟨e0, e1, -⟩ := proj_index t
  unfold iblk0
  rw [View.read_apply]
  show V c main_arg0 _ = V c main_arg0 _
  refine congrArg (V c main_arg0) (funext fun a => Fin.ext ?_)
  match a with
  | ⟨0, _⟩ => show win0_0.index t 0 * 2000 + 1 * p.val = r.val; rw [e0, hr]; omega
  | ⟨1, _⟩ => show win0_0.index t 1 * 128 + 1 * k.val = k.val; rw [e1]; omega

/-- The weight block at any point is the whole weight. -/
theorem weight_block_apply (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e2, e3, -⟩ := proj_index t
  unfold iblk0
  rw [View.read_apply]
  show V c main_arg2 _ = V c main_arg2 _
  refine congrArg (V c main_arg2) (funext fun a => Fin.ext ?_)
  match a with
  | ⟨0, _⟩ => show win0_1.index t 0 * 128 + 1 * k.val = k.val; rw [e2]; omega
  | ⟨1, _⟩ => show win0_1.index t 1 * 128 + 1 * q.val = q.val; rw [e3]; omega

/-- What point `t` writes back is block `t` of the projection of the arrays the region finds. -/
theorem proj_flushed (c : Dev nD) (t : Fin cfg0.N) :
    (dat0 V c).flushed 2 t
      = ((cfg0.win 2).blk t).view.read (Elt Ideal) (Cert.Highway.proj (V c main_arg0) (V c main_arg2)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x128) zero_off]
  obtain ⟨-, -, -, -, e4, e5⟩ := proj_index t
  have ht : t.val < 50 := Nat.lt_of_lt_of_eq t.isLt N_0
  funext j
  obtain ⟨p, q, rfl⟩ : ∃ (p : Fin 2000) (q : Fin 128), j = ix2 p q := ⟨j 0, j 1, eq_ix2 j⟩
  rw [View.read_apply]
  show k0_pay1 (F := Ideal) (iblk0 V c 0 t) (iblk0 V c 1 t) (ix2 p q) = Cert.Highway.proj (V c main_arg0) (V c main_arg2) _
  rw [Cert.KernelIdeal.Blocks.proj_block_apply]
  unfold Cert.Highway.proj
  refine Finset.sum_congr rfl fun k _ => ?_
  have hp : p.val < 2000 := p.isLt
  rw [feat_block_apply V c t p k ⟨t.val * 2000 + p.val, by omega⟩ rfl, weight_block_apply V c t k q]
  refine congrArg₂ (· * ·) (congrArg (V c main_arg0) ?_) (congrArg (V c main_arg2) ?_)
  · refine funext fun a => Fin.ext ?_
    match a with
    | ⟨0, _⟩ => show t.val * 2000 + p.val = win0_2.index t 0 * 2000 + 1 * p.val; rw [e4]; omega
    | ⟨1, _⟩ => rfl
  · refine funext fun a => Fin.ext ?_
    match a with
    | ⟨0, _⟩ => rfl
    | ⟨1, _⟩ => show q.val = win0_2.index t 1 * 128 + 1 * q.val; rw [e5]; omega

/-- An index of the array is in point `t`'s block iff each coordinate is in the block's range on its axis. -/
theorem mem_proj_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the result lies in the block of point `r / 2000`, `r` its row. -/
theorem proj_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [mem_proj_block]
  obtain ⟨-, -, -, -, e4, e5⟩ := proj_index ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- The result array after the first region: the projection of the feature and weight arrays it found. -/
theorem proj_final (c : Dev nD) :
    (dat0 V c).arrAt 2 cfg0.N = Cert.Highway.proj (V c main_arg0) (V c main_arg2) :=
  (dat0 V c).arrAt_eq_of_cover 2 _ (fun t _ => proj_flushed V c t) proj_cover

end Cert.KernelIdeal.Arrays

end
-- ==== Proof.LibKeepdims.lean ====
/-
  Column vectors read at an index. A "keepdims" reduction leaves a column `[a, 1]`; what is read of it
  downstream is always its row coordinate. Three layout operations on columns, each read at an index written
  by coordinates:
    * a column `[a, 1]` flattened to `[a]` reads at `i` the column's entry `(i, 0)`;
    * a vector `[a]` stood up as a column `[a, 1]` reads at `(i, u)` the vector's entry `i`;
    * a column `[a, 1]` broadcast along the lanes to `[a, b]` reads at `(p, c)` the column's entry `(p, 0)`.
  In each the two row-major positions agree because the unit axis contributes nothing to the position.
-/
import Idealize.ShloMosaic.Lib.Pipeline.Value
import Idealize.ShloMosaic.Lib.ValueIdx

namespace Idealize.ShloMosaic.ValueIdx

open Idealize.ShloMosaic

variable {α : Type}

/-- A column `[a, 1]` cast to the vector `[a]` reads, at `i`, the column at `(i, 0)`: the row-major position of
    `(i, 0)` in `[a, 1]` is `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the vector at `i`, whatever the unit
    coordinate `u` (which is `0`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the lane
    coordinate `c` is dropped on the unit axis, the row coordinate kept (and if `a` itself is `1` the row
    coordinate is `0` anyway). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.HighwayBlock.lean ====
/-
  One block of the highway blend. The second kernel loads a `2000 × 128` block of each of the two
  pre-activations `a`, `b` and the whole `128 × 1` gate vector `g`. It takes positive parts, multiplies the positive
  part of `b` lane by lane with `g` laid along the lanes, sums each row over its 128 lanes, applies the logistic
  function to that column, and blends: gate · a⁺ + (1 − gate) · b⁺, the gate column broadcast along the lanes.
  Read at entry `(p, q)` of the block, the row sum is `∑ₖ max(b[p, k], 0) · g[k, 0]` (the gate vector passes
  through column → vector → row → broadcast, each step keeping the coordinate `k`), and the two column broadcasts
  read the column at row `p`.
-/
import proofs.«152546_j77163382440895_1_alg».proof.Proof.Gen.KernelIdeal.Skeleton
import proofs.«152546_j77163382440895_1_alg».proof.Proof.LibKeepdims
import proofs.«152546_j77163382440895_1_alg».proof.Proof.Spec
import Idealize.ShloMosaic.PureOps.Ideal.Laws
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.ValueIdx

/-- A keepdims row sum read at row `p` of the resulting column: the sum over the 128 lanes of row `p`. -/
theorem row_sum_col_apply (src : FVec Ideal S2000x128 .f32)
    (hφ : FKind.Formats .f32) (hacc : (0x00000000#32 : BitVec 32) = FKind.add.neutral .f32 hφ) (p : Fin 2000) (u : Fin 1) :
    shapeCast S2000x1 (multiReduction .add [1] S2000 src 0x00000000#32 reduces_S2000x128_S2000 hφ hacc) shapeCasts_S2000_S2000x1 (ix2 p u)
      = ∑ k : Fin 128, src (ix2 p k) := by
  refine (shapeCast_a_a1_apply _ shapeCasts_S2000_S2000x1 p u).trans ?_
  refine (Ideal.multiReduction_add_single src 0x00000000#32 reduces_S2000x128_S2000 hφ hacc (ix1 p)).trans ?_
  show ∑ k : Fin 128, src (reduces_S2000x128_S2000.lift (ix1 p) k) = _
  refine Finset.sum_congr rfl fun k _ => congrArg src ?_
  exact funext fun a => by match a with | ⟨0, _⟩ => rfl | ⟨1, _⟩ => rfl

/-- The gate vector laid along the lanes: the column `[128, 1]` flattened, stood up as a row `[1, 128]` and
    broadcast over the 2000 rows reads, at `(p, k)`, the column's entry `(k, 0)`. -/
theorem gate_lanes_apply (g : FVec Ideal S128x1 .f32) (p : Fin 2000) (k : Fin 128) :
    broadcastTo S2000x128 (shapeCast S1x128 (shapeCast S128 g shapeCasts_S128x1_S128) shapeCasts_S128_S1x128)
        broadcasts_S1x128_S2000x128 (ix2 p k) = g (ix2 k (0 : Fin 1)) := by
  rw [broadcastTo_1b_ab_apply, shapeCast_a_1a_apply, shapeCast_a1_a_apply]

/-- The gate's argument, as the kernel forms it: the keepdims row sum of `b⁺` times the gate vector laid along
    the lanes, read at row `p` of the resulting column, is the inner product of row `p` of `b⁺` with `g`. -/
theorem row_dot_apply (b : FVec Ideal S2000x128 .f32) (g : FVec Ideal S128x1 .f32)
    (hφ : FKind.Formats .f32) (hacc : (0x00000000#32 : BitVec 32) = FKind.add.neutral .f32 hφ) (p : Fin 2000) (u : Fin 1) :
    shapeCast S2000x1 (multiReduction .add [1] S2000
        (mulf (maximumf b (broadcast S2000x128 (FloatOps.ofBits (F := Ideal) .f32 0x00000000#32)))
          (broadcastTo S2000x128 (shapeCast S1x128 (shapeCast S128 g shapeCasts_S128x1_S128) shapeCasts_S128_S1x128) broadcasts_S1x128_S2000x128))
        0x00000000#32 reduces_S2000x128_S2000 hφ hacc) shapeCasts_S2000_S2000x1 (ix2 p u)
      = ∑ k : Fin 128, max (b (ix2 p k)) 0 * g (ix2 k (0 : Fin 1)) := by
  refine (row_sum_col_apply _ hφ hacc p u).trans ?_
  refine Finset.sum_congr rfl fun k _ => ?_
  show max (b (ix2 p k)) (Ideal.ofBits .f32 0x00000000#32) * _ = _
  rw [Ideal.ofBits_zero_f32, gate_lanes_apply]

/-- Entry `(p, q)` of what the second kernel stores: with `T` the logistic function of row `p`'s inner product,
    `T · max(a[p, q], 0) + (1 − T) · max(b[p, q], 0)`. -/
theorem blend_block_apply (a b : FVec Ideal S2000x128 .f32) (g : FVec Ideal S128x1 .f32) (p : Fin 2000) (q : Fin 128) :
    k1_pay1 (F := Ideal) a b g (ix2 p q)
      = Ideal.logistic (∑ k : Fin 128, max (b (ix2 p k)) 0 * g (ix2 k (0 : Fin 1))) * max (a (ix2 p q)) 0
        + (1 - Ideal.logistic (∑ k : Fin 128, max (b (ix2 p k)) 0 * g (ix2 k (0 : Fin 1)))) * max (b (ix2 p q)) 0 := by
  unfold k1_pay1
  dsimp only
  rw [shapeCast_self, shapeCast_self]
  simp only [addf_apply, mulf_apply, maximumf_apply, broadcast_apply]
  rw [broadcastTo_a1_ab_apply, broadcastTo_a1_ab_apply]
  simp only [subf_apply, broadcast_apply]
  refine congrArg₂ (· + ·) (congrArg₂ (· * ·) (congrArg Ideal.logistic ?_) ?_)
    (congrArg₂ (· * ·) (congrArg₂ (· - ·) ?_ (congrArg Ideal.logistic ?_)) ?_)
  · exact row_dot_apply b g _ _ p 0
  · exact congrArg (max (a (ix2 p q))) Ideal.ofBits_zero_f32
  · exact Cert.Highway.ofBits_one_f32
  · exact row_dot_apply b g _ _ p 0
  · exact congrArg (max (b (ix2 p q))) Ideal.ofBits_zero_f32

end Cert.KernelIdeal.Blocks

end
-- ==== Proof.HighwayArray.lean ====
/-
  The highway blend, from blocks to the whole array. The second kernel runs over 50 grid points; point `t` reads
  rows `2000·t … 2000·t + 1999` of the two pre-activations and the whole gate vector, and writes the same rows of
  the result. An entry's gate depends only on its own row of `b`, and that row lies wholly inside the block, so
  what point `t` writes back is block `t` of the one whole-array function `blend`. The 50 blocks tile the 100000
  rows, so the array ends holding `blend` everywhere.
-/
import proofs.«152546_j77163382440895_1_alg».proof.Proof.Gen.KernelIdeal.Frame
import proofs.«152546_j77163382440895_1_alg».proof.Proof.HighwayBlock
import proofs.«152546_j77163382440895_1_alg».proof.Proof.Spec
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off' : (![0, 0] : Fin 2 → Nat) = fun _ => 0 := funext fun a => by fin_cases a <;> rfl

/-- Where the blocks sit: the two pre-activation blocks and the result block of point `t` are block row `t`,
    column 0; the gate vector's one block is the whole vector. -/
theorem blend_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of `a` at point `t`, entry `(p, k)`, is the array's entry `(2000·t + p, k)`. -/
theorem a_block_apply (c : Dev nD) (t : Fin cfg1.N) (p : Fin 2000) (k : Fin 128) (r : Fin 100000)
    (hr : r.val = t.val * 2000 + p.val) :
    (iblk1 V c 0 t : Vec Ideal S2000x128 .f32) (ix2 p k) = (V c main_v13 : S100000x128.Idx → Elt Ideal .f32) (ix2 r k) := by
  obtain ⟨e0, e1, -⟩ := blend_index t
  unfold iblk1
  rw [View.read_apply]
  show V c main_v13 _ = V c main_v13 _
  refine congrArg (V c main_v13) (funext fun a => Fin.ext ?_)
  match a with
  | ⟨0, _⟩ => show win1_0.index t 0 * 2000 + 1 * p.val = r.val; rw [e0, hr]; omega
  | ⟨1, _⟩ => show win1_0.index t 1 * 128 + 1 * k.val = k.val; rw [e1]; omega

/-- The block of `b` at point `t`, entry `(p, k)`, is the array's entry `(2000·t + p, k)`. -/
theorem b_block_apply (c : Dev nD) (t : Fin cfg1.N) (p : Fin 2000) (k : Fin 128) (r : Fin 100000)
    (hr : r.val = t.val * 2000 + p.val) :
    (iblk1 V c 1 t : Vec Ideal S2000x128 .f32) (ix2 p k) = (V c main_v26 : S100000x128.Idx → Elt Ideal .f32) (ix2 r k) := by
  obtain ⟨-, -, e2, e3, -⟩ := blend_index t
  unfold iblk1
  rw [View.read_apply]
  show V c main_v26 _ = V c main_v26 _
  refine congrArg (V c main_v26) (funext fun a => Fin.ext ?_)
  match a with
  | ⟨0, _⟩ => show win1_1.index t 0 * 2000 + 1 * p.val = r.val; rw [e2, hr]; omega
  | ⟨1, _⟩ => show win1_1.index t 1 * 128 + 1 * k.val = k.val; rw [e3]; omega

/-- The gate vector's block at any point is the whole gate vector. -/
theorem g_block_apply (c : Dev nD) (t : Fin cfg1.N) (k : Fin 128) (u : Fin 1) :
    (iblk1 V c 2 t : Vec Ideal S128x1 .f32) (ix2 k u) = (V c main_arg3 : S128x1.Idx → Elt Ideal .f32) (ix2 k u) := by
  obtain ⟨-, -, -, -, e4, e5, -⟩ := blend_index t
  unfold iblk1
  rw [View.read_apply]
  show V c main_arg3 _ = V c main_arg3 _
  refine congrArg (V c main_arg3) (funext fun a => Fin.ext ?_)
  match a with
  | ⟨0, _⟩ => show win1_2.index t 0 * 128 + 1 * k.val = k.val; rw [e4]; omega
  | ⟨1, _⟩ => show win1_2.index t 1 * 1 + 1 * u.val = u.val; rw [e5]; omega

/-- What point `t` writes back is block `t` of the blend of the arrays the region finds. -/
theorem blend_flushed (c : Dev nD) (t : Fin cfg1.N) :
    (dat1 V c).flushed 3 t
      = ((cfg1.win 3).blk t).view.read (Elt Ideal) (Cert.Highway.blend (V c main_v13) (V c main_v26) (V c main_arg3)) := by
  show (cfg1.win 3).cut (grid1.coords t) ((dat1 V c).after 3 t) = _
  rw [after1_3]
  unfold out1_3
  rw [View.canon_unit_zero zero_off']
  simp only [View.ld_unit_zero (S := S2000x128) zero_off', View.ld_unit_zero (S := S128x1) zero_off']
  obtain ⟨-, -, -, -, -, -, e6, e7⟩ := blend_index t
  have ht : t.val < 50 := Nat.lt_of_lt_of_eq t.isLt N_1
  funext j
  obtain ⟨p, q, rfl⟩ : ∃ (p : Fin 2000) (q : Fin 128), j = ix2 p q := ⟨j 0, j 1, eq_ix2 j⟩
  rw [View.read_apply]
  show k1_pay1 (F := Ideal) (iblk1 V c 0 t) (iblk1 V c 1 t) (iblk1 V c 2 t) (ix2 p q)
    = Cert.Highway.blend (V c main_v13) (V c main_v26) (V c main_arg3) _
  rw [Cert.KernelIdeal.Blocks.blend_block_apply]
  have hp : p.val < 2000 := p.isLt
  have hrow : ∀ k : Fin 128, (iblk1 V c 1 t : Vec Ideal S2000x128 .f32) (ix2 p k)
      = (V c main_v26 : S100000x128.Idx → Elt Ideal .f32) (ix2 (⟨t.val * 2000 + p.val, by omega⟩ : Fin 100000) k) :=
    fun k => b_block_apply V c t p k _ rfl
  have hgate : ∀ k : Fin 128, (iblk1 V c 2 t : Vec Ideal S128x1 .f32) (ix2 k (0 : Fin 1))
      = (V c main_arg3 : S128x1.Idx → Elt Ideal .f32) (ix2 k (0 : Fin 1)) :=
    fun k => g_block_apply V c t k 0
  have hidx : ((cfg1.win 3).blk t).view.emb (ix2 p q) = (ix2 (⟨t.val * 2000 + p.val, by omega⟩ : Fin 100000) q : S100000x128.Idx) := by
    refine funext fun a => Fin.ext ?_
    match a with
    | ⟨0, _⟩ => show win1_3.index t 0 * 2000 + 1 * p.val = t.val * 2000 + p.val; rw [e6]; omega
    | ⟨1, _⟩ => show win1_3.index t 1 * 128 + 1 * q.val = q.val; rw [e7]; omega
  rw [hidx]
  unfold Cert.Highway.blend Cert.Highway.gate
  simp only [hrow, hgate]
  rw [a_block_apply V c t p q ⟨t.val * 2000 + p.val, by omega⟩ rfl]

/-- An index of the array is in point `t`'s block iff each coordinate is in the block's range on its axis. -/
theorem mem_blend_block (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every entry of the result lies in the block of point `r / 2000`, `r` its row. -/
theorem blend_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  rw [mem_blend_block]
  obtain ⟨-, -, -, -, -, -, e6, e7⟩ := blend_index ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

/-- The result array after the second region: the blend of the two pre-activation arrays and the gate vector it
    found. -/
theorem blend_final (c : Dev nD) :
    (dat1 V c).arrAt 3 cfg1.N = Cert.Highway.blend (V c main_v13) (V c main_v26) (V c main_arg3) :=
  (dat1 V c).arrAt_eq_of_cover 3 _ (fun t _ => blend_flushed V c t) blend_cover

end Cert.KernelIdeal.Arrays

end
-- ==== Proof.KernelValue.lean ====
/-
  The kernel program's result, read through its four stretches: first region, host stretch, second region,
  host stretch.

  The first region leaves the projection `X · w2` in its result array (MatmulArray) and nothing else changed. The
  host stretch between the regions computes two sparse propagations — of `w1` and of the projection — each the
  same chain of gather, scale and scatter-add, carried as ONE function `spmm` that is never opened. The second
  region finds those two arrays and the gate vector and leaves their highway blend in its result array
  (HighwayArray). The last stretch is `spmm` once more, of the blend. No stretch writes an argument, so every
  argument is read at its launch contents at every boundary. Altogether the result is
      spmm (blend (spmm w1) (spmm (proj X w2)) wg).
-/
import proofs.«152546_j77163382440895_1_alg».proof.Proof.Gen.KernelIdeal.Frame
import proofs.«152546_j77163382440895_1_alg».proof.Proof.MatmulArray
import proofs.«152546_j77163382440895_1_alg».proof.Proof.HighwayArray
import proofs.«152546_j77163382440895_1_alg».proof.Proof.Spec
import Idealize.ShloMosaic.Lib.StableHlo.Run

set_option maxRecDepth 16384

noncomputable section

namespace Cert.KernelIdeal.Dense

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- One sparse propagation `A · y` in coordinate form, as the program's host operations spell it: negative
    column indices wrapped once, the rows of `y` gathered, each scaled by its edge value, and the scaled rows
    scatter-added from zero into the rows the row indices name. -/
def spmm (vals : (⟨S1600000, .f32⟩ : BufTy).Contents (Elt Ideal)) (rows cols : (⟨S1600000, .i32⟩ : BufTy).Contents (Elt Ideal)) (y : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 y
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-! ## After the first region -/

/-- The first region does not touch argument 1. -/
theorem first_arg1 (c : Dev nD) : W1 m ρ c (Proc.devRef .tc main_arg1) = m ((c : Thread nD τ).loc main_arg1) :=
  (W1_of_ne m ρ c main_arg1 (by decide)).trans rfl
/-- The first region does not touch argument 3. -/
theorem first_arg3 (c : Dev nD) : W1 m ρ c (Proc.devRef .tc main_arg3) = m ((c : Thread nD τ).loc main_arg3) :=
  (W1_of_ne m ρ c main_arg3 (by decide)).trans rfl
/-- The first region does not touch argument 4. -/
theorem first_arg4 (c : Dev nD) : W1 m ρ c (Proc.devRef .tc main_arg4) = m ((c : Thread nD τ).loc main_arg4) :=
  (W1_of_ne m ρ c main_arg4 (by decide)).trans rfl
/-- The first region does not touch argument 5. -/
theorem first_arg5 (c : Dev nD) : W1 m ρ c (Proc.devRef .tc main_arg5) = m ((c : Thread nD τ).loc main_arg5) :=
  (W1_of_ne m ρ c main_arg5 (by decide)).trans rfl
/-- The first region does not touch argument 6. -/
theorem first_arg6 (c : Dev nD) : W1 m ρ c (Proc.devRef .tc main_arg6) = m ((c : Thread nD τ).loc main_arg6) :=
  (W1_of_ne m ρ c main_arg6 (by decide)).trans rfl
/-- The first region leaves the projection of the features by the weight in its result array. -/
theorem first_result (c : Dev nD) :
    W1 m ρ c (Proc.devRef .tc main_v0) = Cert.Highway.proj (m ((c : Thread nD τ).loc main_arg0)) (m ((c : Thread nD τ).loc main_arg2)) :=
  (W1_arr m ρ c 2).trans (Cert.KernelIdeal.Arrays.proj_final (V0 m ρ) c)

/-! ## After the host stretch between the regions -/

/-- The stretch between the regions does not write argument 3. -/
theorem mid_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_arg3 m ρ c)
/-- The stretch between the regions does not write argument 4. -/
theorem mid_arg4 (c : Dev nD) : W2 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_arg4 m ρ c)
/-- The stretch between the regions does not write argument 5. -/
theorem mid_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_arg5 m ρ c)
/-- The stretch between the regions does not write argument 6. -/
theorem mid_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_arg6 m ρ c)
/-- The first pre-activation is the propagation of `w1`. -/
theorem mid_a (c : Dev nD) : V2 m ρ c main_v13 = spmm (m ((c : Thread nD τ).loc main_arg4)) (m ((c : Thread nD τ).loc main_arg5)) (m ((c : Thread nD τ).loc main_arg6)) (m ((c : Thread nD τ).loc main_arg1)) := by
  show StableHlo.after hostOps1 (W1 m ρ c) (Proc.devRef .tc main_v13) = _
  after_results_simp
  rw [first_arg1, first_arg4, first_arg5, first_arg6]
  rfl

/-- The second pre-activation is the propagation of the projection. -/
theorem mid_b (c : Dev nD) : V2 m ρ c main_v26 = spmm (m ((c : Thread nD τ).loc main_arg4)) (m ((c : Thread nD τ).loc main_arg5)) (m ((c : Thread nD τ).loc main_arg6)) (Cert.Highway.proj (m ((c : Thread nD τ).loc main_arg0)) (m ((c : Thread nD τ).loc main_arg2))) := by
  show StableHlo.after hostOps1 (W1 m ρ c) (Proc.devRef .tc main_v26) = _
  after_results_simp
  rw [first_result, first_arg4, first_arg5, first_arg6]
  rfl

/-! ## After the second region -/

/-- The second region does not touch argument 4. -/
theorem second_arg4 (c : Dev nD) : W3 m ρ c (Proc.devRef .tc main_arg4) = m ((c : Thread nD τ).loc main_arg4) :=
  (W3_of_ne m ρ c main_arg4 (by decide)).trans (mid_arg4 m ρ c)
/-- The second region does not touch argument 5. -/
theorem second_arg5 (c : Dev nD) : W3 m ρ c (Proc.devRef .tc main_arg5) = m ((c : Thread nD τ).loc main_arg5) :=
  (W3_of_ne m ρ c main_arg5 (by decide)).trans (mid_arg5 m ρ c)
/-- The second region does not touch argument 6. -/
theorem second_arg6 (c : Dev nD) : W3 m ρ c (Proc.devRef .tc main_arg6) = m ((c : Thread nD τ).loc main_arg6) :=
  (W3_of_ne m ρ c main_arg6 (by decide)).trans (mid_arg6 m ρ c)
/-- The second region leaves the highway blend of the two pre-activations in its result array. -/
theorem second_result (c : Dev nD) :
    W3 m ρ c (Proc.devRef .tc main_v27) = Cert.Highway.blend (spmm (m ((c : Thread nD τ).loc main_arg4)) (m ((c : Thread nD τ).loc main_arg5)) (m ((c : Thread nD τ).loc main_arg6)) (m ((c : Thread nD τ).loc main_arg1))) (spmm (m ((c : Thread nD τ).loc main_arg4)) (m ((c : Thread nD τ).loc main_arg5)) (m ((c : Thread nD τ).loc main_arg6)) (Cert.Highway.proj (m ((c : Thread nD τ).loc main_arg0)) (m ((c : Thread nD τ).loc main_arg2)))) (m ((c : Thread nD τ).loc main_arg3)) := by
  refine (W3_arr m ρ c 3).trans ?_
  rw [Cert.KernelIdeal.Arrays.blend_final (V2 m ρ) c, mid_a, mid_b]
  exact congrArg _ (mid_arg3 m ρ c)

/-! ## After the last host stretch -/

/-- What the program returns, as a function of its arguments' launch contents: the propagation of the blend of the
    propagated `w1` and the propagated projection. -/
def result (c : Dev nD) : (⟨S100000x128, .f32⟩ : BufTy).Contents (Elt Ideal) :=
  spmm (m ((c : Thread nD τ).loc main_arg4)) (m ((c : Thread nD τ).loc main_arg5)) (m ((c : Thread nD τ).loc main_arg6)) (Cert.Highway.blend (spmm (m ((c : Thread nD τ).loc main_arg4)) (m ((c : Thread nD τ).loc main_arg5)) (m ((c : Thread nD τ).loc main_arg6)) (m ((c : Thread nD τ).loc main_arg1))) (spmm (m ((c : Thread nD τ).loc main_arg4)) (m ((c : Thread nD τ).loc main_arg5)) (m ((c : Thread nD τ).loc main_arg6)) (Cert.Highway.proj (m ((c : Thread nD τ).loc main_arg0)) (m ((c : Thread nD τ).loc main_arg2)))) (m ((c : Thread nD τ).loc main_arg3)))

/-- The program's result buffer ends holding `result`. -/
theorem result_eq (c : Dev nD) :
    W4 m ρ c (Proc.devRef .tc main_v40) = result m c := by
  unfold result
  show StableHlo.after hostOps2 (W3 m ρ c) (Proc.devRef .tc main_v40) = _
  after_results_simp
  rw [second_result, second_arg4, second_arg5, second_arg6]
  rfl

end Cert.KernelIdeal.Dense

end
-- ==== Proof.RefValue.lean ====
/-
  The reference, read as the same three dense functions between the same sparse propagations.

  The reference's result is one long composition of host operations. It factors as
      spmm (blend (spmm w1) (spmm (X · w2)) wg)
  where `spmm` — gather the rows named by the column indices, scale by the edge values, scatter-add into the rows
  named by the row indices — is the same chain of operations each of the three times it occurs, and is carried
  here as ONE function that is never opened. What is opened is only the dense part:
    * the host's matrix product at entry `(r, j)` is `∑ₖ X[r, k] · w2[k, j]` — the projection;
    * relu is `max(·, 0)`; `b⁺ · wg` at row `r` is `∑ₖ max(b[r, k], 0) · wg[k, 0]`; jax spells the sigmoid
      `1 / (1 + e^(−t))`, which is the logistic function by definition; the two broadcasts of the gate column read it at
      the entry's row — the blend.
-/
import proofs.«152546_j77163382440895_1_alg».proof.Proof.Gen.ReferenceIdeal.Read
import proofs.«152546_j77163382440895_1_alg».proof.Proof.Spec

noncomputable section

open scoped BigOperators

namespace Cert.ReferenceIdeal.Dense

open Cert.ReferenceIdeal Cert.ReferenceIdeal.Gen Cert.ReferenceIdeal.Read
open Idealize.ShloMosaic Idealize.ShloMosaic.TcCoe Idealize.SL.Sem Idealize.ShloMosaic.ValueIdx

/-- One sparse propagation `A · y` in coordinate form, as the reference's host operations spell it: negative
    column indices wrapped once, the rows of `y` gathered, each scaled by its edge value, and the scaled rows
    scatter-added from zero into the rows the row indices name. -/
def spmm (vals : (⟨S1600000, .f32⟩ : BufTy).Contents (Elt Ideal)) (rows cols : (⟨S1600000, .i32⟩ : BufTy).Contents (Elt Ideal)) (y : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 y
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The first propagation is `spmm` of `w1`. -/
theorem a_pre_eq (x0 x1 : (⟨S100000x128, .f32⟩ : BufTy).Contents (Elt Ideal)) (x2 : (⟨S128x128, .f32⟩ : BufTy).Contents (Elt Ideal)) (x3 : (⟨S128x1, .f32⟩ : BufTy).Contents (Elt Ideal)) (x4 : (⟨S1600000, .f32⟩ : BufTy).Contents (Elt Ideal)) (x5 x6 : (⟨S1600000, .i32⟩ : BufTy).Contents (Elt Ideal)) :
    val_main_v12 (F := Ideal) x1 x4 x5 x6 = spmm x4 x5 x6 x1 := rfl

/-- The second propagation is `spmm` of the host's matrix product. -/
theorem b_pre_eq (x0 x1 : (⟨S100000x128, .f32⟩ : BufTy).Contents (Elt Ideal)) (x2 : (⟨S128x128, .f32⟩ : BufTy).Contents (Elt Ideal)) (x3 : (⟨S128x1, .f32⟩ : BufTy).Contents (Elt Ideal)) (x4 : (⟨S1600000, .f32⟩ : BufTy).Contents (Elt Ideal)) (x5 x6 : (⟨S1600000, .i32⟩ : BufTy).Contents (Elt Ideal)) :
    val_main_v27 (F := Ideal) x0 x2 x4 x5 x6 = spmm x4 x5 x6 (val_main_v14 (F := Ideal) x0 x2) := rfl

/-- The result is `spmm` of the blended array. -/
theorem out_eq (x0 x1 : (⟨S100000x128, .f32⟩ : BufTy).Contents (Elt Ideal)) (x2 : (⟨S128x128, .f32⟩ : BufTy).Contents (Elt Ideal)) (x3 : (⟨S128x1, .f32⟩ : BufTy).Contents (Elt Ideal)) (x4 : (⟨S1600000, .f32⟩ : BufTy).Contents (Elt Ideal)) (x5 x6 : (⟨S1600000, .i32⟩ : BufTy).Contents (Elt Ideal)) :
    val_main_v55 (F := Ideal) x0 x1 x2 x3 x4 x5 x6 = spmm x4 x5 x6 (val_main_v42 (F := Ideal) x0 x1 x2 x3 x4 x5 x6) := rfl

/-- The host's matrix product is the projection, entry by entry. -/
theorem proj_ref (x0 : (⟨S100000x128, .f32⟩ : BufTy).Contents (Elt Ideal)) (x2 : (⟨S128x128, .f32⟩ : BufTy).Contents (Elt Ideal)) :
    val_main_v14 (F := Ideal) x0 x2 = Cert.Highway.proj x0 x2 := by
  funext i
  obtain ⟨r, q, rfl⟩ : ∃ (r : Fin 100000) (q : Fin 128), i = ix2 r q := ⟨i 0, i 1, eq_ix2 i⟩
  rw [val_main_v14_apply]
  show _ = ∑ k : Fin 128, x0 (ix2 r k) * x2 (ix2 k q)
  refine Finset.sum_congr rfl fun k _ => ?_
  have hl : lidx_main_v14 (ix2 r q) k = ix2 r k := funext fun a => Fin.ext (by match a with | ⟨0, _⟩ => rfl | ⟨1, _⟩ => rfl)
  have hr : ridx_main_v14 (ix2 r q) k = ix2 k q := funext fun a => Fin.ext (by match a with | ⟨0, _⟩ => rfl | ⟨1, _⟩ => rfl)
  rw [hl, hr]

/-- An all-zero array and an all-one column, as the reference spells them. -/
abbrev zeros : FVec Ideal S100000x128 .f32 :=
  broadcastInDim S100000x128 ![] bcast_S_S100000x128 (constant (F := Ideal) S_ .f32 0x00000000#32)
abbrev ones : FVec Ideal S100000x1 .f32 :=
  broadcastInDim S100000x1 ![] bcast_S_S100000x1 (constant (F := Ideal) S_ .f32 0x3F800000#32)

/-- The gate column as the reference forms it: `1 / (1 + e^(−(b⁺ · wg)))`, one entry per row. -/
def sig (b : FVec Ideal S100000x128 .f32) (g : FVec Ideal S128x1 .f32) : FVec Ideal S100000x1 .f32 :=
  Host.divf (F := Ideal) ones (addf (F := Ideal) ones (Host.exp (F := Ideal) (Host.negf (F := Ideal) (Host.dotGeneral (F := Ideal) dot_S100000x128_S128x1_S100000x1_1_0_0_1_n_n none (maximumf (F := Ideal) b zeros) g))))

/-- The reference's dense middle as one function of the two propagated arrays and the gate vector: relu, relu,
    the gate column, and the blend with the gate column broadcast along the lanes. -/
def dense (a b : FVec Ideal S100000x128 .f32) (g : FVec Ideal S128x1 .f32) : FVec Ideal S100000x128 .f32 :=
  addf (F := Ideal) (mulf (F := Ideal) (broadcastInDim S100000x128 ![0, 1] bcast_S100000x1_S100000x128_0_1 (sig b g)) (maximumf (F := Ideal) a zeros))
    (mulf (F := Ideal) (broadcastInDim S100000x128 ![0, 1] bcast_S100000x1_S100000x128_0_1 (subf (F := Ideal) ones (sig b g))) (maximumf (F := Ideal) b zeros))

/-- The blended array is the dense middle applied to the two propagated arrays. -/
theorem mid_eq (x0 x1 : (⟨S100000x128, .f32⟩ : BufTy).Contents (Elt Ideal)) (x2 : (⟨S128x128, .f32⟩ : BufTy).Contents (Elt Ideal)) (x3 : (⟨S128x1, .f32⟩ : BufTy).Contents (Elt Ideal)) (x4 : (⟨S1600000, .f32⟩ : BufTy).Contents (Elt Ideal)) (x5 x6 : (⟨S1600000, .i32⟩ : BufTy).Contents (Elt Ideal)) :
    val_main_v42 (F := Ideal) x0 x1 x2 x3 x4 x5 x6
      = dense (val_main_v12 (F := Ideal) x1 x4 x5 x6) (val_main_v27 (F := Ideal) x0 x2 x4 x5 x6) x3 := rfl

/-- The host's matrix–vector product at row `r`: the sum over the 128 lanes of the row's entries times the
    vector's. -/
theorem matvec_apply (bp : FVec Ideal S100000x128 .f32) (g : FVec Ideal S128x1 .f32) (r : Fin 100000) (u : Fin 1) :
    Host.dotGeneral (F := Ideal) dot_S100000x128_S128x1_S100000x1_1_0_0_1_n_n none bp g (ix2 r u) = ∑ k : Fin 128, bp (ix2 r k) * g (ix2 k u) := by
  simp only [Host.dotGeneral]
  rw [Ideal.dotGeneral_apply, ← Equiv.sum_comp (contrEquiv1 dot_S100000x128_S128x1_S100000x1_1_0_0_1_n_n 128 rfl rfl).symm]
  refine Finset.sum_congr rfl fun k _ => ?_
  have hk := contrEquiv1_symm_val dot_S100000x128_S128x1_S100000x1_1_0_0_1_n_n 128 rfl rfl k
  have el : dot_S100000x128_S128x1_S100000x1_1_0_0_1_n_n.lhsIdx (ix2 r u) ((contrEquiv1 dot_S100000x128_S128x1_S100000x1_1_0_0_1_n_n 128 rfl rfl).symm k) = ix2 r k := funext fun a => Fin.ext (by
    match a with
    | ⟨0, _⟩ => exact lhs_main_v29_0 _ _
    | ⟨1, _⟩ => exact (lhs_main_v29_1 _ _).trans hk)
  have er : dot_S100000x128_S128x1_S100000x1_1_0_0_1_n_n.rhsIdx (ix2 r u) ((contrEquiv1 dot_S100000x128_S128x1_S100000x1_1_0_0_1_n_n 128 rfl rfl).symm k) = ix2 k u := funext fun a => Fin.ext (by
    match a with
    | ⟨0, _⟩ => exact (rhs_main_v29_0 _ _).trans hk
    | ⟨1, _⟩ => exact rhs_main_v29_1 _ _)
  rw [el, er]

/-- A column broadcast along the lanes reads, at `(r, q)`, the column's entry of row `r`. -/
theorem lanes_apply (v : FVec Ideal S100000x1 .f32) (r : Fin 100000) (q : Fin 128) :
    broadcastInDim S100000x128 ![0, 1] bcast_S100000x1_S100000x128_0_1 v (ix2 r q) = v (ix2 r (0 : Fin 1)) :=
  broadcastInDim_apply _ bcast_S100000x1_S100000x128_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The reference's gate column at row `r` is the gate of row `r`: relu is `max(·, 0)`, the matrix–vector
    product is the row's inner product, and `1 / (1 + e^(−t))` is the logistic function. -/
theorem sig_apply (b : FVec Ideal S100000x128 .f32) (g : FVec Ideal S128x1 .f32) (r : Fin 100000) :
    sig b g (ix2 r (0 : Fin 1)) = Cert.Highway.gate b g r := by
  unfold sig Cert.Highway.gate Ideal.logistic
  show Ideal.div (Ideal.ofBits .f32 0x3F800000#32)
      (Ideal.ofBits .f32 0x3F800000#32 + Ideal.exp (-(Host.dotGeneral (F := Ideal) dot_S100000x128_S128x1_S100000x1_1_0_0_1_n_n none (maximumf (F := Ideal) b zeros) g (ix2 r (0 : Fin 1))))) = _
  rw [matvec_apply, Cert.Highway.ofBits_one_f32]
  have hrelu : ∀ k : Fin 128, maximumf (F := Ideal) b zeros (ix2 r k) = max (b (ix2 r k)) 0 := fun k => by
    show max (b (ix2 r k)) (Ideal.ofBits .f32 0x00000000#32) = _
    rw [Ideal.ofBits_zero_f32]
  simp only [hrelu]

/-- The reference's dense middle is the blend, entry by entry. -/
theorem dense_eq_blend (a b : FVec Ideal S100000x128 .f32) (g : FVec Ideal S128x1 .f32) :
    dense a b g = Cert.Highway.blend a b g := by
  funext i
  obtain ⟨r, q, rfl⟩ : ∃ (r : Fin 100000) (q : Fin 128), i = ix2 r q := ⟨i 0, i 1, eq_ix2 i⟩
  show broadcastInDim S100000x128 ![0, 1] bcast_S100000x1_S100000x128_0_1 (sig b g) (ix2 r q) * max (a (ix2 r q)) (Ideal.ofBits .f32 0x00000000#32)
      + broadcastInDim S100000x128 ![0, 1] bcast_S100000x1_S100000x128_0_1 (subf (F := Ideal) ones (sig b g)) (ix2 r q) * max (b (ix2 r q)) (Ideal.ofBits .f32 0x00000000#32)
      = Cert.Highway.gate b g r * max (a (ix2 r q)) 0 + (1 - Cert.Highway.gate b g r) * max (b (ix2 r q)) 0
  rw [lanes_apply, lanes_apply, Ideal.ofBits_zero_f32]
  show sig b g (ix2 r (0 : Fin 1)) * _ + (Ideal.ofBits .f32 0x3F800000#32 - sig b g (ix2 r (0 : Fin 1))) * _ = _
  rw [sig_apply, Cert.Highway.ofBits_one_f32]

/-- The reference's result: the propagation of the blend of the two propagated arrays. -/
theorem result_ref (x0 x1 : (⟨S100000x128, .f32⟩ : BufTy).Contents (Elt Ideal)) (x2 : (⟨S128x128, .f32⟩ : BufTy).Contents (Elt Ideal)) (x3 : (⟨S128x1, .f32⟩ : BufTy).Contents (Elt Ideal)) (x4 : (⟨S1600000, .f32⟩ : BufTy).Contents (Elt Ideal)) (x5 x6 : (⟨S1600000, .i32⟩ : BufTy).Contents (Elt Ideal)) :
    val_main_v55 (F := Ideal) x0 x1 x2 x3 x4 x5 x6
      = spmm x4 x5 x6 (Cert.Highway.blend (spmm x4 x5 x6 x1) (spmm x4 x5 x6 (Cert.Highway.proj x0 x2)) x3) := by
  rw [out_eq, mid_eq, dense_eq_blend, a_pre_eq x0 x1 x2 x3 x4 x5 x6, b_pre_eq x0 x1 x2 x3 x4 x5 x6, proj_ref]

end Cert.ReferenceIdeal.Dense

end
-- ==== Proof.lean ====
/-
  The highway graph layer: a Pallas program of two kernels against its jnp reference, equal over the extended reals.

  Both programs compute, from features `X`, weights `w1`, `w2`, a gate vector `wg` and a sparse adjacency in
  coordinate form,
      out = A · blend(A · w1, A · (X · w2), wg),
  where `A · y` is the sparse propagation (gather rows, scale by the edge values, scatter-add) and
  `blend(a, b, wg)[r, j] = T · max(a[r, j], 0) + (1 − T) · max(b[r, j], 0)` with the row's gate
  `T = σ(∑ₖ max(b[r, k], 0) · wg[k, 0])`.

  The kernel program computes `X · w2` in a first kernel (bf16 operands, exact on extended reals) and the blend in
  a second one, 2000 rows per grid point; the three propagations are host operations in both programs, the SAME
  chain of operations, so they are carried as one function and never opened. What has to be shown is only that
    * the first kernel's result array is the matrix product, entry by entry (the blocks tile the rows);
    * the second kernel's result array is the blend, entry by entry (a row's gate needs only that row, which lies in
      one block; the kernel's lane sum and the reference's matrix–vector product are the same sum; the kernel's
      logistic operation and the reference's `1 / (1 + e^(−t))` are the same function).
  Neither step moves a factor across a sum or cancels anything, so the precondition (finite inputs) is not used.
  The idealization rewrote no operation, so there is nothing to preserve.
-/
import proofs.«152546_j77163382440895_1_alg».proof.Defs
import proofs.«152546_j77163382440895_1_alg».proof.Proof.Gen.Kernel
import proofs.«152546_j77163382440895_1_alg».proof.Proof.Gen.Kernel.Frame
import proofs.«152546_j77163382440895_1_alg».proof.Proof.Gen.KernelIdeal
import proofs.«152546_j77163382440895_1_alg».proof.Proof.Gen.KernelIdeal.Frame
import proofs.«152546_j77163382440895_1_alg».proof.Proof.Gen.ReferenceIdeal
import proofs.«152546_j77163382440895_1_alg».proof.Proof.Gen.ReferenceIdeal.Run
import proofs.«152546_j77163382440895_1_alg».proof.Proof.Gen.ReferenceIdeal.Read
import proofs.«152546_j77163382440895_1_alg».proof.Proof.Gen.Pre_finite_inputs
import proofs.«152546_j77163382440895_1_alg».proof.Proof.KernelRun
import proofs.«152546_j77163382440895_1_alg».proof.Proof.KernelValue
import proofs.«152546_j77163382440895_1_alg».proof.Proof.RefValue
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two programs spell the sparse propagation with the same operations: one function. -/
theorem spmm_same (vals : (⟨Cert.KernelIdeal.S1600000, .f32⟩ : BufTy).Contents (Elt Ideal))
    (rows cols : (⟨Cert.KernelIdeal.S1600000, .i32⟩ : BufTy).Contents (Elt Ideal))
    (y : (⟨Cert.KernelIdeal.S100000x128, .f32⟩ : BufTy).Contents (Elt Ideal)) :
    Cert.ReferenceIdeal.Dense.spmm vals rows cols y = Cert.KernelIdeal.Dense.spmm vals rows cols y := rfl

/-- Both programs end with `A · blend(A · w1, A · (X · w2), wg)` in their result arrays. -/
theorem algebraic : Cert.algebraic_KernelIdeal_ReferenceIdeal := by
  intro m ρ m' ρ' _ hagree
  refine ⟨fun c => Cert.KernelIdeal.Dense.result m c, ?_, ?_⟩
  · exact (θ_run Cert.KernelIdeal.defs _ _).mono
      (fun r h c => ⟨(h c).1.trans (Cert.KernelIdeal.Dense.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, Cert.ReferenceIdeal.Dense.result_ref]
    obtain ⟨h0, h1, h2, h3, h4, h5, h6⟩ := hagree c
    rw [h0, h1, h2, h3, h4, h5, h6, spmm_same, spmm_same, spmm_same]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
